-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x256 : Shape := ⟨3, ![32, 256, 256]⟩
abbrev S32x256x2048 : Shape := ⟨3, ![32, 256, 2048]⟩
abbrev S_ : Shape := ⟨0, ![]⟩

class Facts : Prop where
  bcast_S_S32x256x256 : S_.BroadcastsInDim S32x256x256 (![] : Fin 0 → Fin S32x256x256.rank)
  reducesTo_S32x256x256_S_d0_1_2 : S32x256x256.ReducesTo [0, 1, 2] S_
  h_S_ : 0 < S_.numel
  bcast_S_S32x256x2048 : S_.BroadcastsInDim S32x256x2048 (![] : Fin 0 → Fin S32x256x2048.rank)
  reducesTo_S32x256x2048_S_d0_1_2 : S32x256x2048.ReducesTo [0, 1, 2] S_

variable [Facts]

def fn {F : FTy → Type} [FloatOps F] (main_arg0 : FVec F S32x256x256 .f32) (main_arg1 : FVec F S32x256x2048 .f32) : IVec S_ 1 :=
  let main_v0 : FVec F S32x256x256 .f32 := Host.absf main_arg0
  let main_cst : FVec F S_ .f32 := constant S_ .f32 0x7F800000#32
  let main_v1 : FVec F S32x256x256 .f32 := broadcastInDim S32x256x256 ![] bcast_S_S32x256x256 main_cst
  let main_v2 : IVec S32x256x256 1 := cmpf .olt main_v0 main_v1
  let main_c : IVec S_ 1 := constantI S_ 1 1#1
  let main_v3 : IVec S_ 1 := (fun x v => Host.reduce IntOp.andi x v reducesTo_S32x256x256_S_d0_1_2 h_S_) main_v2 main_c
  let main_v4 : FVec F S32x256x2048 .f32 := Host.absf main_arg1
  let main_cst_0 : FVec F S_ .f32 := constant S_ .f32 0x7F800000#32
  let main_v5 : FVec F S32x256x2048 .f32 := broadcastInDim S32x256x2048 ![] bcast_S_S32x256x2048 main_cst_0
  let main_v6 : IVec S32x256x2048 1 := cmpf .olt main_v4 main_v5
  let main_c_1 : IVec S_ 1 := constantI S_ 1 1#1
  let main_v7 : IVec S_ 1 := (fun x v => Host.reduce IntOp.andi x v reducesTo_S32x256x2048_S_d0_1_2 h_S_) main_v6 main_c_1
  let main_v8 : IVec S_ 1 := andi main_v3 main_v7
  main_v8
-- ==== Kernel.lean ====
abbrev S32x256x256 : Shape := ⟨3, ![32, 256, 256]⟩
abbrev S32x256x2048 : Shape := ⟨3, ![32, 256, 2048]⟩
abbrev S2x256x256 : Shape := ⟨3, ![2, 256, 256]⟩
abbrev S2x256x2048 : Shape := ⟨3, ![2, 256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S32x256x256, .f32⟩
  | .hbm, ⟨1, _⟩ => ⟨S32x256x2048, .f32⟩
  | .hbm, ⟨2, _⟩ => ⟨S32x256x2048, .f32⟩
  | .local _ .vmem, ⟨0, _⟩ => ⟨S2x256x256, .f32⟩
  | .local _ .vmem, ⟨1, _⟩ => ⟨S2x256x256, .f32⟩
  | .local _ .vmem, ⟨2, _⟩ => ⟨S2x256x2048, .f32⟩
  | .local _ .vmem, ⟨3, _⟩ => ⟨S2x256x2048, .f32⟩
  | .local _ .vmem, ⟨4, _⟩ => ⟨S2x256x2048, .f32⟩
  | .local _ .vmem, ⟨5, _⟩ => ⟨S2x256x2048, .f32⟩
  | _, _ => ⟨S32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2x256x256_S2x256x256_0_0_0 : ∀ a, (![0, 0, 0] : Fin 3 → Nat) a + S2x256x256.size a ≤ S2x256x256.size a
  h_S2x256x256 : 0 < S2x256x256.numel
  bitsLt_bf16_f32 : FTy.bits .bf16 < FTy.bits .f32
  inb_S2x256x2048_S2x256x2048_0_0_0 : ∀ a, (![0, 0, 0] : Fin 3 → Nat) a + S2x256x2048.size a ≤ S2x256x2048.size a
  h_S2x256x2048 : 0 < S2x256x2048.numel
  dot_S2x256x256_S2x256x2048_S2x256x2048_2_1_1_2_0_0_wf : DotDims.WF S2x256x256 S2x256x2048 S2x256x2048 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x256.size a ≤ S32x256x256.size a
  hwx0_0 : ∀ i : grid0.Coords, EltTy.bits .f32 = 32 ∨ (Rect.block (s := S32x256x256) S2x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x2048.size a ≤ S32x256x2048.size a
  hwx0_1 : ∀ i : grid0.Coords, EltTy.bits .f32 = 32 ∨ (Rect.block (s := S32x256x2048) S2x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x2048.size a ≤ S32x256x2048.size a
  hwx0_2 : ∀ i : grid0.Coords, EltTy.bits .f32 = 32 ∨ (Rect.block (s := S32x256x2048) S2x256x2048.size (cc0_transform_2 i) (hinb0_2 i)).WholeWords (EltTy.packing .f32)

variable [Facts₀]

def dot_S2x256x256_S2x256x2048_S2x256x2048_2_1_1_2_0_0 : DotDims S2x256x256 S2x256x2048 S2x256x2048 where
  lhsContracting := [2]
  rhsContracting := [1]
  lhsNonContracting := [1]
  rhsNonContracting := [2]
  lhsBatch := [0]
  rhsBatch := [0]
  wf := dot_S2x256x256_S2x256x2048_S2x256x2048_2_1_1_2_0_0_wf

abbrev win0_0 : Pipeline.Window sig grid0 :=
  Pipeline.Window.ofSpec (Memref.whole main_arg0) S2x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x256x256 : Shape := ⟨3, ![32, 256, 256]⟩
abbrev S32x256x2048 : Shape := ⟨3, ![32, 256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S32x256x256, .f32⟩
  | .hbm, ⟨1, _⟩ => ⟨S32x256x2048, .f32⟩
  | .hbm, ⟨2, _⟩ => ⟨S32x256x2048, .f32⟩
  | _, _ => ⟨S32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S32x256x256_S32x256x2048_S32x256x2048_2_1_1_2_0_0_wf : DotDims.WF S32x256x256 S32x256x2048 S32x256x2048 [2] [1] [1] [2] [0] [0]

variable [Facts₀]

def dot_S32x256x256_S32x256x2048_S32x256x2048_2_1_1_2_0_0 : DotDims S32x256x256 S32x256x2048 S32x256x2048 where
  lhsContracting := [2]
  rhsContracting := [1]
  lhsNonContracting := [1]
  rhsNonContracting := [2]
  lhsBatch := [0]
  rhsBatch := [0]
  wf := dot_S32x256x256_S32x256x2048_S32x256x2048_2_1_1_2_0_0_wf

class Facts : Prop extends Facts₀ where

variable [Facts]
-- ==== Proof.BlockProduct.lean ====
/-
  What the kernel body computes from one grid point's two input blocks, read at an index. The body narrows both
  blocks to bf16 (no change of value over the extended reals), and multiplies them on the matrix unit into a zero
  accumulator, batch axis 0, contracting the left block's axis 2 against the right block's axis 1: at block index
  (b, c, s) the stored value is the sum over k of xblock[b, c, k] · pblock[b, k, s].
-/
import proofs.«133066_j26577257627700_1_alg».proof.Proof.Gen.KernelIdeal.Skeleton
import Idealize.ShloMosaic.Lib.ValueIdx
import Idealize.ShloMosaic.PureOps.Ideal.Laws

noncomputable section

namespace Cert.KernelIdeal.BlockValue

open Cert.KernelIdeal Cert.KernelIdeal.Gen Idealize.ShloMosaic

/-- The left block's index at block index (b, c, s) and contraction position k: (b, c, k). -/
abbrev leftBlk (j : S2x256x2048.Idx) (k : Fin 256) : S2x256x256.Idx := fun a => match a with
  | ⟨0, _⟩ => ⟨(j 0).val, (j 0).isLt⟩
  | ⟨1, _⟩ => ⟨(j 1).val, (j 1).isLt⟩
  | ⟨2, _⟩ => ⟨k.val, k.isLt⟩

/-- The right block's index at block index (b, c, s) and contraction position k: (b, k, s). -/
abbrev rightBlk (j : S2x256x2048.Idx) (k : Fin 256) : S2x256x2048.Idx := fun a => match a with
  | ⟨0, _⟩ => ⟨(j 0).val, (j 0).isLt⟩
  | ⟨1, _⟩ => ⟨k.val, k.isLt⟩
  | ⟨2, _⟩ => ⟨(j 2).val, (j 2).isLt⟩

/-- The left operand's batch coordinate is the output's. -/
theorem lhs_axis0 (j : S2x256x2048.Idx) (q : dot_S2x256x256_S2x256x2048_S2x256x2048_2_1_1_2_0_0.contr.Idx) :
    (dot_S2x256x256_S2x256x2048_S2x256x2048_2_1_1_2_0_0.lhsIdx j q 0).val = (j 0).val := by
  unfold DotDims.lhsIdx
  rw [dif_pos (show (0 : Fin S2x256x256.rank) ∈ dot_S2x256x256_S2x256x2048_S2x256x2048_2_1_1_2_0_0.lhsBatch by decide)]
  rfl
/-- The left operand's row coordinate is the output's. -/
theorem lhs_axis1 (j : S2x256x2048.Idx) (q : dot_S2x256x256_S2x256x2048_S2x256x2048_2_1_1_2_0_0.contr.Idx) :
    (dot_S2x256x256_S2x256x2048_S2x256x2048_2_1_1_2_0_0.lhsIdx j q 1).val = (j 1).val := by
  unfold DotDims.lhsIdx
  rw [dif_neg (show ¬(1 : Fin S2x256x256.rank) ∈ dot_S2x256x256_S2x256x2048_S2x256x2048_2_1_1_2_0_0.lhsBatch by decide), dif_pos (show (1 : Fin S2x256x256.rank) ∈ dot_S2x256x256_S2x256x2048_S2x256x2048_2_1_1_2_0_0.lhsNonContracting by decide)]
  rfl
/-- The left operand's last coordinate is the contraction position. -/
theorem lhs_axis2 (j : S2x256x2048.Idx) (q : dot_S2x256x256_S2x256x2048_S2x256x2048_2_1_1_2_0_0.contr.Idx) :
    (dot_S2x256x256_S2x256x2048_S2x256x2048_2_1_1_2_0_0.lhsIdx j q 2).val = (q ⟨0, by decide⟩).val :=
  dot_S2x256x256_S2x256x2048_S2x256x2048_2_1_1_2_0_0.lhsIdx_val_of_single rfl j q
/-- The right operand's batch coordinate is the output's. -/
theorem rhs_axis0 (j : S2x256x2048.Idx) (q : dot_S2x256x256_S2x256x2048_S2x256x2048_2_1_1_2_0_0.contr.Idx) :
    (dot_S2x256x256_S2x256x2048_S2x256x2048_2_1_1_2_0_0.rhsIdx j q 0).val = (j 0).val := by
  unfold DotDims.rhsIdx
  rw [dif_pos (show (0 : Fin S2x256x2048.rank) ∈ dot_S2x256x256_S2x256x2048_S2x256x2048_2_1_1_2_0_0.rhsBatch by decide)]
  rfl
/-- The right operand's middle coordinate is the contraction position. -/
theorem rhs_axis1 (j : S2x256x2048.Idx) (q : dot_S2x256x256_S2x256x2048_S2x256x2048_2_1_1_2_0_0.contr.Idx) :
    (dot_S2x256x256_S2x256x2048_S2x256x2048_2_1_1_2_0_0.rhsIdx j q 1).val = (q ⟨0, by decide⟩).val :=
  dot_S2x256x256_S2x256x2048_S2x256x2048_2_1_1_2_0_0.rhsIdx_val_of_single rfl j q
/-- The right operand's column coordinate is the output's. -/
theorem rhs_axis2 (j : S2x256x2048.Idx) (q : dot_S2x256x256_S2x256x2048_S2x256x2048_2_1_1_2_0_0.contr.Idx) :
    (dot_S2x256x256_S2x256x2048_S2x256x2048_2_1_1_2_0_0.rhsIdx j q 2).val = (j 2).val := by
  unfold DotDims.rhsIdx
  rw [dif_neg (show ¬(2 : Fin S2x256x2048.rank) ∈ dot_S2x256x256_S2x256x2048_S2x256x2048_2_1_1_2_0_0.rhsBatch by decide), dif_pos (show (2 : Fin S2x256x2048.rank) ∈ dot_S2x256x256_S2x256x2048_S2x256x2048_2_1_1_2_0_0.rhsNonContracting by decide)]
  rfl

/-- The stored value at block index (b, c, s): the sum over k of the left block at (b, c, k) times the right block at
    (b, k, s). The narrowing to bf16 is the identity on the extended reals and the zero accumulator adds nothing. -/
theorem pay_apply (x0 : Vec Ideal S2x256x256 .f32) (x1 : Vec Ideal S2x256x2048 .f32) (j : S2x256x2048.Idx) :
    k0_pay1 (F := Ideal) x0 x1 j = ∑ k : Fin 256, x0 (leftBlk j k) * x1 (rightBlk j k) := by
  unfold k0_pay1
  simp only [matmul]
  rw [Ideal.matmul_constant_zero_apply, ← Equiv.sum_comp (ValueIdx.contrEquiv1 dot_S2x256x256_S2x256x2048_S2x256x2048_2_1_1_2_0_0 256 rfl rfl).symm]
  refine Finset.sum_congr rfl fun k _ => ?_
  have hk := ValueIdx.contrEquiv1_symm_val dot_S2x256x256_S2x256x2048_S2x256x2048_2_1_1_2_0_0 256 rfl rfl k
  have el : dot_S2x256x256_S2x256x2048_S2x256x2048_2_1_1_2_0_0.lhsIdx j ((ValueIdx.contrEquiv1 dot_S2x256x256_S2x256x2048_S2x256x2048_2_1_1_2_0_0 256 rfl rfl).symm k) = leftBlk j k := funext fun a => Fin.ext (by
    match a with
    | ⟨0, _⟩ => exact lhs_axis0 _ _
    | ⟨1, _⟩ => exact lhs_axis1 _ _
    | ⟨2, _⟩ => exact (lhs_axis2 _ _).trans hk)
  have er : dot_S2x256x256_S2x256x2048_S2x256x2048_2_1_1_2_0_0.rhsIdx j ((ValueIdx.contrEquiv1 dot_S2x256x256_S2x256x2048_S2x256x2048_2_1_1_2_0_0 256 rfl rfl).symm k) = rightBlk j k := funext fun a => Fin.ext (by
    match a with
    | ⟨0, _⟩ => exact rhs_axis0 _ _
    | ⟨1, _⟩ => exact (rhs_axis1 _ _).trans hk
    | ⟨2, _⟩ => exact rhs_axis2 _ _)
  rw [el, er]
  rfl

end Cert.KernelIdeal.BlockValue

end
-- ==== Proof.BatchedProduct.lean ====
/-
  The batched matrix product, as ONE function of its two argument arrays over the extended reals:
  for x : [32, 256, 256] and p : [32, 256, 2048],
      (x ⊗ p)[b, c, s] = Σ_{k < 256} x[b, c, k] · p[b, k, s].
  The sum is a finite unordered sum in the commutative monoid of the extended reals, so it is the same whatever
  order or grouping a program forms it in; nothing here needs the entries to be finite.
-/
import Idealize.ShloMosaic.PureOps.Ideal
import Idealize.ShloMosaic.Lib.ValueIdx

noncomputable section

namespace Cert.BatchedProduct

open Idealize.ShloMosaic

/-- The left factor's index at output index (b, c, s) and contraction position k: (b, c, k). -/
abbrev leftAt (i : (⟨3, ![32, 256, 2048]⟩ : Shape).Idx) (k : Fin 256) : (⟨3, ![32, 256, 256]⟩ : Shape).Idx :=
  fun a => match a with
  | ⟨0, _⟩ => ⟨(i 0).val, (i 0).isLt⟩
  | ⟨1, _⟩ => ⟨(i 1).val, (i 1).isLt⟩
  | ⟨2, _⟩ => ⟨k.val, k.isLt⟩

/-- The right factor's index at output index (b, c, s) and contraction position k: (b, k, s). -/
abbrev rightAt (i : (⟨3, ![32, 256, 2048]⟩ : Shape).Idx) (k : Fin 256) : (⟨3, ![32, 256, 2048]⟩ : Shape).Idx :=
  fun a => match a with
  | ⟨0, _⟩ => ⟨(i 0).val, (i 0).isLt⟩
  | ⟨1, _⟩ => ⟨k.val, k.isLt⟩
  | ⟨2, _⟩ => ⟨(i 2).val, (i 2).isLt⟩

/-- The batched product: entry (b, c, s) is the sum over k of x[b, c, k] · p[b, k, s]. -/
def bmm (x : (⟨3, ![32, 256, 256]⟩ : Shape).Idx → EReal) (p : (⟨3, ![32, 256, 2048]⟩ : Shape).Idx → EReal) :
    (⟨3, ![32, 256, 2048]⟩ : Shape).Idx → EReal :=
  fun i => ∑ k : Fin 256, x (leftAt i k) * p (rightAt i k)

theorem bmm_apply (x : (⟨3, ![32, 256, 256]⟩ : Shape).Idx → EReal) (p : (⟨3, ![32, 256, 2048]⟩ : Shape).Idx → EReal)
    (i : (⟨3, ![32, 256, 2048]⟩ : Shape).Idx) : bmm x p i = ∑ k : Fin 256, x (leftAt i k) * p (rightAt i k) := rfl

end Cert.BatchedProduct

end
-- ==== Proof.ArrayProduct.lean ====
/-
  From blocks to the array. The grid has 16 points; point t stages rows 2t, 2t+1 of the batch axis of both
  arguments and writes back rows 2t, 2t+1 of the result, every window's block index being (t, 0, 0). So what point t
  writes back is block t of the batched product of the two whole argument arrays — entry (b, c, s) of the block is
  the sum over k of x[2t + b, c, k] · p[2t + b, k, s] —, the 16 blocks tile the result's batch axis, and the result
  array after the run is the batched product.
-/
import proofs.«133066_j26577257627700_1_alg».proof.Proof.Gen.KernelIdeal.Value
import proofs.«133066_j26577257627700_1_alg».proof.Proof.BlockProduct
import proofs.«133066_j26577257627700_1_alg».proof.Proof.BatchedProduct

noncomputable section

namespace Cert.KernelIdeal.ArrayValue

open Cert.KernelIdeal Cert.KernelIdeal.Gen Idealize.ShloMosaic Idealize.ShloMosaic.TcCoe Idealize.SL.Sem
open Cert.BatchedProduct Cert.KernelIdeal.BlockValue
open Idealize.ShloMosaic.Pipeline (Dat)

variable (m : (ℓ : Loc nD τ sig) → Buf (Elt Ideal) ℓ) (ρ : Dev nD → PrngReg)

/-- The body's loads and its store start at the origin of their buffers. -/
theorem origin : (![0, 0, 0] : Fin 3 → Nat) = fun _ => 0 := funext fun a => by fin_cases a <;> rfl

/-- The index maps over the 16 grid points: both inputs' blocks sit at the output's batch block and at 0 on the two
    other axes, and the output's batch block is below 16. -/
theorem block_indices : ∀ t : Fin cfg0.N,
    win0_0.index t (0 : Fin 3) = win0_2.index t (0 : Fin 3)
    ∧ win0_0.index t (1 : Fin 3) = 0 ∧ win0_0.index t (2 : Fin 3) = 0
    ∧ win0_1.index t (0 : Fin 3) = win0_2.index t (0 : Fin 3)
    ∧ win0_1.index t (1 : Fin 3) = 0 ∧ win0_1.index t (2 : Fin 3) = 0
    ∧ win0_2.index t (1 : Fin 3) = 0 ∧ win0_2.index t (2 : Fin 3) = 0
    ∧ win0_2.index t (0 : Fin 3) ≤ 15 :=
  (by decide +kernel : ∀ t : Fin grid0.N, _)

/-- Every batch block is some point's. -/
theorem block_onto : ∀ q : Fin 16, ∃ t : Fin cfg0.N, win0_2.index t = ![q.val, 0, 0] :=
  (by decide +kernel : ∀ q : Fin 16, ∃ t : Fin grid0.N, win0_2.index t = ![q.val, 0, 0])

/-- What point t writes back is block t of the batched product of the argument arrays as the region finds them. -/
theorem flushed_eq (c : Dev nD) (t : Fin cfg0.N) :
    (dats m 0 c).flushed 2 t
      = ((cfg0.win 2).blk t).view.read (Elt Ideal) (bmm (V m c main_arg0) (V m c main_arg1)) := by
  rw [Cert.KernelIdeal.Value.flushed2]
  unfold out0_2
  rw [View.canon_unit_zero origin]
  simp only [View.ld_unit_zero (S := S2x256x256) origin, View.ld_unit_zero (S := S2x256x2048) origin]
  obtain ⟨e0, e1, e2, e3, e4, e5, e6, e7, e8⟩ := block_indices t
  funext j
  show k0_pay1 (F := Ideal) (iblk m c 0 t) (iblk m c 1 t) j
    = bmm (V m c main_arg0) (V m c main_arg1) (((cfg0.win 2).blk t).view.emb j)
  refine (pay_apply (iblk m c 0 t) (iblk m c 1 t) j).trans ?_
  rw [bmm_apply]
  refine Finset.sum_congr rfl fun k _ => ?_
  have h0 : ((cfg0.win 0).blk t).view.emb (leftBlk j k) = leftAt (((cfg0.win 2).blk t).view.emb j) k := by
    funext a; apply Fin.ext
    match a with
    | ⟨0, _⟩ => show win0_0.index t (0 : Fin 3) * 2 + 1 * (j 0).val = win0_2.index t (0 : Fin 3) * 2 + 1 * (j 0).val; omega
    | ⟨1, _⟩ => show win0_0.index t (1 : Fin 3) * 256 + 1 * (j 1).val = win0_2.index t (1 : Fin 3) * 256 + 1 * (j 1).val; omega
    | ⟨2, _⟩ => show win0_0.index t (2 : Fin 3) * 256 + 1 * k.val = k.val; omega
  have h1 : ((cfg0.win 1).blk t).view.emb (rightBlk j k) = rightAt (((cfg0.win 2).blk t).view.emb j) k := by
    funext a; apply Fin.ext
    match a with
    | ⟨0, _⟩ => show win0_1.index t (0 : Fin 3) * 2 + 1 * (j 0).val = win0_2.index t (0 : Fin 3) * 2 + 1 * (j 0).val; omega
    | ⟨1, _⟩ => show win0_1.index t (1 : Fin 3) * 256 + 1 * k.val = k.val; omega
    | ⟨2, _⟩ => show win0_1.index t (2 : Fin 3) * 2048 + 1 * (j 2).val = win0_2.index t (2 : Fin 3) * 2048 + 1 * (j 2).val; omega
  have a0 : iblk m c 0 t (leftBlk j k) = V m c main_arg0 (leftAt (((cfg0.win 2).blk t).view.emb j) k) :=
    congrArg (V m c main_arg0) h0
  have a1 : iblk m c 1 t (rightBlk j k) = V m c main_arg1 (rightAt (((cfg0.win 2).blk t).view.emb j) k) :=
    congrArg (V m c main_arg1) h1
  exact congrArg₂ (fun a b : EReal => a * b) a0 a1

/-- An index of the result array is in point t's block iff each coordinate is in the block's range on its axis. -/
theorem mem_block (t : Fin cfg0.N) (i : S32x256x2048.Idx) :
    i ∈ ((cfg0.win 2).blk t).view.set ↔ ∀ a : Fin 3, win0_2.index t a * S2x256x2048.size a ≤ (i a).val ∧ (i a).val < win0_2.index t a * S2x256x2048.size a + S2x256x2048.size a := by
  show i ∈ ((View.whole main_v0).slice (win0_2.rect t)).set ↔ _
  rw [View.set_slice_whole, Rect.mem_set_unit]
  exact Iff.rfl

/-- The blocks tile the result: index (b, c, s) is in the block of the point whose batch block is b / 2. -/
theorem covered (i : S32x256x2048.Idx) :
    ∃ t : Fin cfg0.N, (cfg0.win 2).flush t = true ∧ i ∈ ((cfg0.win 2).blk t).view.set := by
  have hi0 : (i 0).val < 32 := (i 0).isLt
  have hi1 : (i 1).val < 256 := (i 1).isLt
  have hi2 : (i 2).val < 2048 := (i 2).isLt
  obtain ⟨t, ht⟩ := block_onto ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 256 ≤ (i 1).val ∧ (i 1).val < win0_2.index t (1 : Fin 3) * 256 + 256; omega
  | ⟨2, _⟩ => show win0_2.index t (2 : Fin 3) * 2048 ≤ (i 2).val ∧ (i 2).val < win0_2.index t (2 : Fin 3) * 2048 + 2048; omega

/-- The result array after the run is the batched product of the two argument arrays. -/
theorem final (c : Dev nD) :
    (dats m 0 c).arrAt 2 cfg0.N = bmm (m ((c : Thread nD τ).loc main_arg0)) (m ((c : Thread nD τ).loc main_arg1)) :=
  (dats m 0 c).arrAt_eq_of_cover 2 (bmm (V m c main_arg0) (V m c main_arg1)) (fun t _ => flushed_eq m c t) covered

/-- Every weakly fair execution of the idealized kernel ends with the result array at the batched product of the
    arguments, the arguments unchanged. -/
theorem run : θ_run defs (onTc (τ := τ) (main (F := Ideal))) ⟨m, fun _ => 0, ρ⟩ fun r => ∀ c : Dev nD,
      r.2.mem ((c : Thread nD τ).loc main_v0) = bmm (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.ArrayValue

end
-- ==== Proof.RefProduct.lean ====
/-
  The reference's one host operation, a dot_general with batch axis 0 contracting the left operand's axis 2 against
  the right operand's axis 1, is the batched product: read at an output index (b, c, s) it is the sum over k of
  x[b, c, k] · p[b, k, s].
-/
import proofs.«133066_j26577257627700_1_alg».proof.Proof.Gen.ReferenceIdeal.Read
import proofs.«133066_j26577257627700_1_alg».proof.Proof.BatchedProduct

noncomputable section

namespace Cert.ReferenceIdeal.RefValue

open Cert.ReferenceIdeal Cert.ReferenceIdeal.Gen Cert.ReferenceIdeal.Read Idealize.ShloMosaic Cert.BatchedProduct

/-- The reference's result, as a function of its two arguments, is their batched product. -/
theorem dot_eq_bmm (x : (⟨S32x256x256, .f32⟩ : BufTy).Contents (Elt Ideal)) (p : (⟨S32x256x2048, .f32⟩ : BufTy).Contents (Elt Ideal)) :
    val_main_v0 (F := Ideal) x p = bmm x p := by
  funext i
  rw [val_main_v0_apply, bmm_apply]
  refine Finset.sum_congr rfl fun k _ => ?_
  have el : lidx_main_v0 i k = leftAt i k := funext fun a => by
    match a with
    | ⟨0, _⟩ => rfl
    | ⟨1, _⟩ => rfl
    | ⟨2, _⟩ => rfl
  have er : ridx_main_v0 i k = rightAt i k := funext fun a => by
    match a with
    | ⟨0, _⟩ => rfl
    | ⟨1, _⟩ => rfl
    | ⟨2, _⟩ => rfl
  rw [el, er]

end Cert.ReferenceIdeal.RefValue

end
-- ==== Proof.lean ====
/-
  The kernel stretches a [32, 256, 256] array x along its last axis by a [32, 256, 2048] alignment array p: per batch
  row b the result is the matrix product x[b] · p[b]. It walks the batch axis two rows at a time (16 grid points),
  narrows both blocks to bf16 and multiplies them on the matrix unit into a zero accumulator; the reference is one
  batched dot_general over the whole arrays. Over the extended reals the narrowing changes nothing and both sides
  are, entry by entry, the same finite sum
      out[b, c, s] = Σ_{k < 256} x[b, c, k] · p[b, k, s],
  so the two results are equal with no appeal to finiteness of the inputs.

  Proof/BatchedProduct.lean states that function; Proof/RefProduct.lean reads the reference's dot_general as it;
  Proof/BlockProduct.lean reads the kernel body's stored value at a block index; Proof/ArrayProduct.lean carries the
  blocks to the whole result array (the 16 batch blocks tile it). The three frames are the generated ones, the
  reference's being its generated run with the result dropped, and the idealization rewrote nothing.
-/
import proofs.«133066_j26577257627700_1_alg».proof.Defs
import proofs.«133066_j26577257627700_1_alg».proof.Proof.Gen.Kernel
import proofs.«133066_j26577257627700_1_alg».proof.Proof.Gen.Kernel.Skeleton
import proofs.«133066_j26577257627700_1_alg».proof.Proof.Gen.Kernel.Launch
import proofs.«133066_j26577257627700_1_alg».proof.Proof.Gen.Kernel.Points
import proofs.«133066_j26577257627700_1_alg».proof.Proof.Gen.Kernel.Frame
import proofs.«133066_j26577257627700_1_alg».proof.Proof.Gen.KernelIdeal
import proofs.«133066_j26577257627700_1_alg».proof.Proof.Gen.KernelIdeal.Skeleton
import proofs.«133066_j26577257627700_1_alg».proof.Proof.Gen.KernelIdeal.Launch
import proofs.«133066_j26577257627700_1_alg».proof.Proof.Gen.KernelIdeal.Points
import proofs.«133066_j26577257627700_1_alg».proof.Proof.Gen.KernelIdeal.Frame
import proofs.«133066_j26577257627700_1_alg».proof.Proof.Gen.ReferenceIdeal
import proofs.«133066_j26577257627700_1_alg».proof.Proof.Gen.Pre_finite_inputs
import proofs.«133066_j26577257627700_1_alg».proof.Proof.Gen.KernelIdeal.Value
import proofs.«133066_j26577257627700_1_alg».proof.Proof.Gen.ReferenceIdeal.Run
import proofs.«133066_j26577257627700_1_alg».proof.Proof.Gen.ReferenceIdeal.Read
import proofs.«133066_j26577257627700_1_alg».proof.Proof.ArrayProduct
import proofs.«133066_j26577257627700_1_alg».proof.Proof.RefProduct
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the batched product of the arguments in the result array: the kernel block by block, the
    reference in one operation; the arguments agree, so the results are equal entry by entry. -/
theorem algebraic : Cert.algebraic_KernelIdeal_ReferenceIdeal := by
  intro m ρ m' ρ' _ hagree
  refine ⟨fun c => Cert.BatchedProduct.bmm (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.dot_eq_bmm _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
